-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S2048x2048 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S1 : Shape := ⟨1, ![1]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩

abbrev nBuf : Space → Nat
  | .hbm => 60
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .i1⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .bf16⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .i1⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_cst_10 : Ref sig .tc := ⟨.hbm, 47, rfl⟩
abbrev main_call5_v0 : Ref sig .tc := ⟨.hbm, 48, rfl⟩
abbrev main_call5_v1 : Ref sig .tc := ⟨.hbm, 49, rfl⟩
abbrev main_call5_v2 : Ref sig .tc := ⟨.hbm, 50, rfl⟩
abbrev main_call5_v3 : Ref sig .tc := ⟨.hbm, 51, rfl⟩
abbrev main_call5_v4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x2048_S2048_d0 : S2048x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bitsLt_bf16_f32 : FTy.bits .bf16 < FTy.bits .f32
  reducesTo_S2048_S_d0 : S2048.ReducesTo [0] S_
  bcast_S_S1 : S_.BroadcastsInDim S1 (![] : Fin 0 → Fin S1.rank)
  bcast_S1_S2048_0 : S1.BroadcastsInDim S2048 (![0] : Fin 1 → Fin S2048.rank)
  bcast_S_S2048 : S_.BroadcastsInDim S2048 (![] : Fin 0 → Fin S2048.rank)
  shapeCasts_S2048_S1x2048 : S2048.ShapeCasts S1x2048
  shapeCasts_S4x2048x2048_S8192x2048 : S4x2048x2048.ShapeCasts S8192x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S8192x2048_S4x2048x2048 : S8192x2048.ShapeCasts S4x2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v32) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S1 : Shape := ⟨1, ![1]⟩
abbrev S4x2048 : Shape := ⟨2, ![4, 2048]⟩
abbrev S4x2048x1 : Shape := ⟨3, ![4, 2048, 1]⟩
abbrev S1x2048 : Shape := ⟨2, ![1, 2048]⟩
abbrev S1x1x2048 : Shape := ⟨3, ![1, 1, 2048]⟩

abbrev nBuf : Space → Nat
  | .hbm => 122
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .i1⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .i1⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S_, .f32⟩
  | .hbm, ⟨42, _⟩ => ⟨S4x2048x1, .f32⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S4x2048x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S_, .f32⟩
  | .hbm, ⟨64, _⟩ => ⟨S1x2048, .f32⟩
  | .hbm, ⟨65, _⟩ => ⟨S1x2048, .i1⟩
  | .hbm, ⟨66, _⟩ => ⟨S_, .f32⟩
  | .hbm, ⟨67, _⟩ => ⟨S1x2048, .f32⟩
  | .hbm, ⟨68, _⟩ => ⟨S1x2048, .f32⟩
  | .hbm, ⟨69, _⟩ => ⟨S_, .f32⟩
  | .hbm, ⟨70, _⟩ => ⟨S1x2048, .f32⟩
  | .hbm, ⟨71, _⟩ => ⟨S1x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S4x2048x2048, .f32⟩
  | .hbm, ⟨88, _⟩ => ⟨S1x1x2048, .f32⟩
  | .hbm, ⟨89, _⟩ => ⟨S4x2048x2048, .f32⟩
  | .hbm, ⟨90, _⟩ => ⟨S4x2048x2048, .f32⟩
  | .hbm, ⟨91, _⟩ => ⟨S_, .f32⟩
  | .hbm, ⟨92, _⟩ => ⟨S4x2048x2048, .f32⟩
  | .hbm, ⟨93, _⟩ => ⟨S4x2048x2048, .f32⟩
  | .hbm, ⟨94, _⟩ => ⟨S4x2048x2048, .f32⟩
  | .hbm, ⟨95, _⟩ => ⟨S_, .f32⟩
  | .hbm, ⟨96, _⟩ => ⟨S4x2048, .f32⟩
  | .hbm, ⟨97, _⟩ => ⟨S4x2048x1, .f32⟩
  | .hbm, ⟨98, _⟩ => ⟨S_, .f32⟩
  | .hbm, ⟨99, _⟩ => ⟨S4x2048x1, .f32⟩
  | .hbm, ⟨100, _⟩ => ⟨S4x2048x1, .i1⟩
  | .hbm, ⟨101, _⟩ => ⟨S_, .f32⟩
  | .hbm, ⟨102, _⟩ => ⟨S4x2048x1, .f32⟩
  | .hbm, ⟨103, _⟩ => ⟨S4x2048x1, .f32⟩
  | .hbm, ⟨104, _⟩ => ⟨S_, .f32⟩
  | .hbm, ⟨105, _⟩ => ⟨S4x2048x1, .f32⟩
  | .hbm, ⟨106, _⟩ => ⟨S4x2048x1, .f32⟩
  | .hbm, ⟨107, _⟩ => ⟨S4x2048x2048, .f32⟩
  | .hbm, ⟨108, _⟩ => ⟨S4x2048x2048, .f32⟩
  | .hbm, ⟨109, _⟩ => ⟨S4x2048x2048, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S4x2048x2048, .f32⟩
  | .hbm, ⟨114, _⟩ => ⟨S4x2048x2048, .f32⟩
  | .hbm, ⟨115, _⟩ => ⟨S_, .f32⟩
  | .hbm, ⟨116, _⟩ => ⟨S4x2048x2048, .f32⟩
  | .hbm, ⟨117, _⟩ => ⟨S4x2048x2048, .f32⟩
  | .hbm, ⟨118, _⟩ => ⟨S4x2048x2048, .f32⟩
  | .hbm, ⟨119, _⟩ => ⟨S4x2048x2048, .f32⟩
  | .hbm, ⟨120, _⟩ => ⟨S4x2048x2048, .f32⟩
  | .hbm, ⟨121, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_cst_10 : Ref sig .tc := ⟨.hbm, 48, rfl⟩
abbrev main_call5_v0 : Ref sig .tc := ⟨.hbm, 49, rfl⟩
abbrev main_call5_v1 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_cst_12 : Ref sig .tc := ⟨.hbm, 63, rfl⟩
abbrev main_v37 : Ref sig .tc := ⟨.hbm, 64, rfl⟩
abbrev main_v38 : Ref sig .tc := ⟨.hbm, 65, rfl⟩
abbrev main_cst_13 : Ref sig .tc := ⟨.hbm, 66, rfl⟩
abbrev main_v39 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_15 : Ref sig .tc := ⟨.hbm, 75, rfl⟩
abbrev main_cst_16 : Ref sig .tc := ⟨.hbm, 76, rfl⟩
abbrev main_call8_v0 : Ref sig .tc := ⟨.hbm, 77, rfl⟩
abbrev main_call8_v1 : Ref sig .tc := ⟨.hbm, 78, rfl⟩
abbrev main_call8_v2 : Ref sig .tc := ⟨.hbm, 79, rfl⟩
abbrev main_call8_v3 : Ref sig .tc := ⟨.hbm, 80, rfl⟩
abbrev main_call8_v4 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_call9_cst : Ref sig .tc := ⟨.hbm, 91, rfl⟩
abbrev main_call9_v0 : Ref sig .tc := ⟨.hbm, 92, rfl⟩
abbrev main_v55 : Ref sig .tc := ⟨.hbm, 93, rfl⟩
abbrev main_v56 : Ref sig .tc := ⟨.hbm, 94, rfl⟩
abbrev main_cst_17 : Ref sig .tc := ⟨.hbm, 95, rfl⟩
abbrev main_v57 : Ref sig .tc := ⟨.hbm, 96, rfl⟩
abbrev main_v58 : Ref sig .tc := ⟨.hbm, 97, rfl⟩
abbrev main_cst_18 : Ref sig .tc := ⟨.hbm, 98, rfl⟩
abbrev main_v59 : Ref sig .tc := ⟨.hbm, 99, rfl⟩
abbrev main_v60 : Ref sig .tc := ⟨.hbm, 100, rfl⟩
abbrev main_cst_19 : Ref sig .tc := ⟨.hbm, 101, rfl⟩
abbrev main_v61 : Ref sig .tc := ⟨.hbm, 102, rfl⟩
abbrev main_v62 : Ref sig .tc := ⟨.hbm, 103, rfl⟩
abbrev main_cst_20 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_21 : Ref sig .tc := ⟨.hbm, 110, rfl⟩
abbrev main_cst_22 : Ref sig .tc := ⟨.hbm, 111, rfl⟩
abbrev main_call12_v0 : Ref sig .tc := ⟨.hbm, 112, rfl⟩
abbrev main_call12_v1 : Ref sig .tc := ⟨.hbm, 113, rfl⟩
abbrev main_call12_v2 : Ref sig .tc := ⟨.hbm, 114, rfl⟩
abbrev main_call12_v3 : Ref sig .tc := ⟨.hbm, 115, rfl⟩
abbrev main_call12_v4 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩

abbrev nD : Nat := 1
abbrev τ : Topo := Topo.v7x

variable {F : FTy → Type} [FloatOps F]

class Facts₀ : Prop where
  reducesTo_S2048_S_d0 : S2048.ReducesTo [0] S_
  h_S_ : 0 < S_.numel
  bcast_S_S1 : S_.BroadcastsInDim S1 (![] : Fin 0 → Fin S1.rank)
  bcast_S1_S2048_0 : S1.BroadcastsInDim S2048 (![0] : Fin 1 → Fin S2048.rank)
  bcast_S_S2048 : S_.BroadcastsInDim S2048 (![] : Fin 0 → Fin S2048.rank)
  reducesTo_S4x2048x2048_S4x2048_d2 : S4x2048x2048.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S2048x2048_S2048_d0 : S2048x2048.ReducesTo [0] S2048
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x2048_S4x2048x2048_2_0_01_1_n_n_wf : DotDims.WF S4x2048x2048 S2048x2048 S4x2048x2048 [2] [0] [0, 1] [1] [] []

variable [Facts₀]

def dot_S4x2048x2048_S2048x2048_S4x2048x2048_2_0_01_1_n_n : DotDims S4x2048x2048 S2048x2048 S4x2048x2048 where
  lhsContracting := [2]
  rhsContracting := [0]
  lhsNonContracting := [0, 1]
  rhsNonContracting := [1]
  lhsBatch := []
  rhsBatch := []
  wf := dot_S4x2048x2048_S2048x2048_S4x2048x2048_2_0_01_1_n_n_wf

class Facts : Prop extends Facts₀ where

variable [Facts]
-- ==== Proof.Quant.lean ====
/-
  Symmetric quantise–dequantise on the extended reals.

  A row (or column, or whole vector) `g` is quantised against its absolute maximum `amax g = max_k |g k|`
  (the fold of `max` from `-∞`): the step is `scale a = a / 127` when `a > 0` and `1` otherwise, and an entry `v`
  becomes `qdq v s = clamp (roundeven (v / s)) · s` with the clamp to `[-127, 127]`.

  What is proved here is what makes that arithmetic stay inside the real numbers: the absolute maximum of reals
  is a real or `-∞`, so the step is always a POSITIVE REAL; a clamped value lies between two reals, so `qdq v s`
  is a real whatever `v` is; sums, products and maxima of reals are reals. And the one law that joins the
  straight-through form `x + (q - x)` to `q`: it holds for every extended real `q` as soon as `x` is a real
  (at `x = ±∞` it fails: `∞ + (q - ∞) = -∞`).
-/
import Idealize.ShloMosaic.PureOps.Ideal
import Idealize.ShloMosaic.PureOps.Ideal.Laws

noncomputable section

namespace QDense

open Idealize.ShloMosaic

/-- An extended real that is a real number. -/
def IsR (a : EReal) : Prop := ∃ r : ℝ, a = (r : EReal)

theorem isR_coe (r : ℝ) : IsR (r : EReal) := ⟨r, rfl⟩

/-- Between two reals there are only reals. -/
theorem isR_of_between {a : EReal} {lo hi : ℝ} (h1 : (lo : EReal) ≤ a) (h2 : a ≤ (hi : EReal)) : IsR a :=
  ⟨a.toReal, (EReal.coe_toReal (ne_top_of_le_ne_top (EReal.coe_ne_top hi) h2)
    (ne_bot_of_le_ne_bot (EReal.coe_ne_bot lo) h1)).symm⟩

theorem IsR.add {a b : EReal} (ha : IsR a) (hb : IsR b) : IsR (a + b) := by
  obtain ⟨r, rfl⟩ := ha; obtain ⟨t, rfl⟩ := hb; exact ⟨r + t, (EReal.coe_add r t).symm⟩

theorem IsR.mul {a b : EReal} (ha : IsR a) (hb : IsR b) : IsR (a * b) := by
  obtain ⟨r, rfl⟩ := ha; obtain ⟨t, rfl⟩ := hb; exact ⟨r * t, (EReal.coe_mul r t).symm⟩

theorem IsR.max {a b : EReal} (ha : IsR a) (hb : IsR b) : IsR (max a b) := by
  obtain ⟨r, rfl⟩ := ha; obtain ⟨t, rfl⟩ := hb; exact ⟨Max.max r t, EReal.coe_strictMono.monotone.map_max⟩

theorem IsR.neg {a : EReal} (ha : IsR a) : IsR (-a) := by
  obtain ⟨r, rfl⟩ := ha; exact ⟨-r, (EReal.coe_neg r).symm⟩

/-- A finite sum of reals is a real. -/
theorem isR_sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The straight-through form collapses when the carried value is a real: `x + (q - x) = q` for EVERY
    extended real `q`. -/
theorem st_cancel {x : EReal} (hx : IsR x) (q : EReal) : x + (q - x) = q := by
  obtain ⟨r, rfl⟩ := hx
  induction q using EReal.rec with
  | bot => simp
  | coe t => rw [← EReal.coe_sub, ← EReal.coe_add]; congr 1; ring
  | top => simp

/-! ## The constants -/

abbrev c127 : EReal := Ideal.ofBits .f32 0x42FE0000#32
abbrev cm127 : EReal := Ideal.ofBits .f32 0xC2FE0000#32
abbrev c1 : EReal := Ideal.ofBits .f32 0x3F800000#32
abbrev c0 : EReal := Ideal.ofBits .f32 0x00000000#32
abbrev cninf : EReal := Ideal.ofBits .f32 0xFF800000#32

theorem c127_eq : c127 = ((127 : ℝ) : EReal) := by
  simp [c127, Ideal.ofBits, Ideal.ieee, -EReal.coe_mul]; norm_num
theorem cm127_eq : cm127 = ((-127 : ℝ) : EReal) := by
  simp [cm127, Ideal.ofBits, Ideal.ieee, -EReal.coe_mul]; norm_num
theorem c1_eq : c1 = ((1 : ℝ) : EReal) := by
  simp [c1, Ideal.ofBits, Ideal.ieee, -EReal.coe_mul]; norm_num
theorem c0_eq : c0 = ((0 : ℝ) : EReal) := by
  simp [c0, Ideal.ofBits, Ideal.ieee]
theorem cninf_eq : cninf = ⊥ := by
  simp [cninf, Ideal.ofBits, Ideal.ieee]

/-! ## Absolute maximum, step, quantise–dequantise -/

/-- `max_k |g k|`, folded from `-∞`. -/
def amax {n : ℕ} (g : Fin n → EReal) : EReal :=
  (Finset.univ : Finset (Fin n)).fold max cninf (fun k => max (g k) (-(g k)))

/-- The quantisation step of an absolute maximum `a`: `a / 127` if `a > 0`, else `1`. -/
def scale (a : EReal) : EReal := Scalar.select (Ideal.cmp .ogt a c0) (Ideal.div a c127) c1

/-- `clamp (roundeven (v / s)) · s`. -/
def qdq (v s : EReal) : EReal :=
  min c127 (max cm127 (Ideal.liftRound Ideal.roundHalfEven (Ideal.div v s))) * s

/-- A fold of `max` from `-∞` over reals is `-∞` (nothing folded) or a real. -/
theorem fold_max_bot_or_real {ι : Type*} (s : Finset ι) (f : ι → EReal) (h : ∀ i ∈ s, IsR (f i)) :
    s.fold max ⊥ f = ⊥ ∨ IsR (s.fold max ⊥ f) := by
  classical
  induction s using Finset.induction_on with
  | empty => left; simp
  | insert a s ha ih =>
    rw [Finset.fold_insert ha]
    obtain ⟨r, hr⟩ := h a (Finset.mem_insert_self a s)
    rcases ih (fun i hi => h i (Finset.mem_insert_of_mem hi)) with e | ⟨t, ht⟩
    · right; rw [e, hr]; exact ⟨r, by simp⟩
    · right; rw [ht, hr]; exact ⟨Max.max r t, EReal.coe_strictMono.monotone.map_max.symm⟩

theorem amax_bot_or_real {n : ℕ} (g : Fin n → EReal) (hg : ∀ k, IsR (g k)) : amax g = ⊥ ∨ IsR (amax g) := by
  unfold amax; rw [cninf_eq]
  exact fold_max_bot_or_real _ _ fun k _ => (hg k).max (hg k).neg

/-- The step is a positive real, whatever the absolute maximum (a real or `-∞`) is. -/
theorem scale_pos {a : EReal} (h : a = ⊥ ∨ IsR a) : ∃ r : ℝ, 0 < r ∧ scale a = (r : EReal) := by
  unfold scale
  rcases h with rfl | ⟨r, rfl⟩
  · refine ⟨1, one_pos, ?_⟩
    have : Ideal.cmp .ogt ⊥ c0 = 0#1 := by simp [Ideal.cmp]
    rw [this, c1_eq]; rfl
  · by_cases hr : 0 < r
    · refine ⟨r / 127, by positivity, ?_⟩
      have : Ideal.cmp .ogt (r : EReal) c0 = 1#1 := by
        rw [c0_eq]; simp [Ideal.cmp, hr]
      rw [this, c127_eq, Ideal.div_coe (by norm_num : (127 : ℝ) ≠ 0), ← EReal.coe_mul]
      show ((r * (1 / 127) : ℝ) : EReal) = _
      congr 1; ring
    · refine ⟨1, one_pos, ?_⟩
      have : Ideal.cmp .ogt (r : EReal) c0 = 0#1 := by
        rw [c0_eq]; simp [Ideal.cmp, hr]
      rw [this, c1_eq]; rfl

theorem scale_isR {a : EReal} (h : a = ⊥ ∨ IsR a) : IsR (scale a) := by
  obtain ⟨r, _, e⟩ := scale_pos h; exact ⟨r, e⟩

/-- A clamped value times a real step is a real, whatever was clamped. -/
theorem qdq_isR (v : EReal) {s : EReal} (hs : IsR s) : IsR (qdq v s) := by
  unfold qdq
  refine IsR.mul (isR_of_between (lo := -127) (hi := 127) ?_ ?_) hs
  · rw [← cm127_eq]; exact le_min (by rw [cm127_eq, c127_eq]; exact_mod_cast (by norm_num : (-127 : ℝ) ≤ 127)) (le_max_left _ _)
  · rw [← c127_eq]; exact min_le_left _ _

end QDense

end
-- ==== Proof.Finite.lean ====
/-
  From the precondition to real numbers: `finite_inputs` says that every entry of the three inputs has absolute
  value below `+∞`, which on the extended reals is exactly "the entry is a real number".
-/
import proofs.«113498_j81621558493457_1_alg».proof.Pre_finite_inputs
import proofs.«113498_j81621558493457_1_alg».proof.Proof.Quant
import Idealize.ShloMosaic.Lib.ReduceAll

noncomputable section

namespace QDense

open Idealize.ShloMosaic

/-- The rank-0 shape has one index. -/
instance subsingleton_scalar_idx : Subsingleton Cert.Pre_finite_inputs.S_.Idx :=
  ⟨fun a b => funext fun d => d.elim0⟩

/-- The pattern `0x7F800000` is `+∞`. -/
theorem ofBits_pinf : Ideal.ofBits .f32 0x7F800000#32 = (⊤ : EReal) := by
  simp [Ideal.ofBits, Ideal.ieee]

/-- An extended real whose absolute value `max x (-x)` lies below `+∞` is a real: at `-∞` the negation is
    `+∞`, at `+∞` the value itself is. -/
theorem isR_of_abs_lt_top {x : EReal} (h : max x (-x) < ⊤) : IsR x := by
  induction x using EReal.rec with
  | bot => simp at h
  | coe r => exact ⟨r, rfl⟩
  | top => simp at h

/-- One entry: where the comparison of `|a|` against the broadcast `+∞` reads 1, the entry is a real. -/
theorem isR_of_cmp_entry {S : Shape} (a : FVec Ideal S .f32)
    (hb : Cert.Pre_finite_inputs.S_.BroadcastsInDim S (![] : Fin 0 → Fin S.rank)) (i : S.Idx)
    (h : cmpf .olt (Host.absf a)
        (broadcastInDim S ![] hb (constant (F := Ideal) Cert.Pre_finite_inputs.S_ .f32 0x7F800000#32)) i = 1#1) :
    IsR (a i) := by
  have e : cmpf .olt (Host.absf a)
        (broadcastInDim S ![] hb (constant (F := Ideal) Cert.Pre_finite_inputs.S_ .f32 0x7F800000#32)) i
      = Ideal.cmp .olt (max (a i) (-(a i))) (Ideal.ofBits .f32 0x7F800000#32) := rfl
  rw [e, ofBits_pinf] at h
  refine isR_of_abs_lt_top ?_
  by_contra hn
  simp [Ideal.cmp, hn] at h

/-- All three inputs hold real numbers where the precondition is all ones. -/
theorem reals_of_finite [Cert.Pre_finite_inputs.Facts]
    (a0 : FVec Ideal Cert.Pre_finite_inputs.S4x2048x2048 .f32) (a1 : FVec Ideal Cert.Pre_finite_inputs.S2048x2048 .f32)
    (a2 : FVec Ideal Cert.Pre_finite_inputs.S2048 .f32)
    (h : Cert.Pre_finite_inputs.fn (F := Ideal) a0 a1 a2 = fun _ => 1#1) :
    (∀ i, IsR (a0 i)) ∧ (∀ i, IsR (a1 i)) ∧ (∀ i, IsR (a2 i)) := by
  have h0 := congrFun h (fun d => d.elim0)
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact isR_of_cmp_entry a0 _ i (Host.reduce_andi_all _ _ _ _ _ h0' i)
  · exact isR_of_cmp_entry a1 _ i (Host.reduce_andi_all _ _ _ _ _ h1 i)
  · exact isR_of_cmp_entry a2 _ i (Host.reduce_andi_all _ _ _ _ _ h2 i)

end QDense

end
-- ==== Proof.Spec.lean ====
/-
  The quantised dense layer, row by row.

  Every output row depends on ONE input row: the row `g` (2048 entries) is quantised against its own absolute
  maximum (`rowq g`), contracted with the already quantised weight matrix `K` (2048 × 2048), the quantised bias
  `bq` is added and negative entries are cut to zero (`rowy g K bq`), and that row is quantised against ITS
  absolute maximum (`rowout g K bq`). The whole result `G x K B` over the [4, 2048, 2048] input is this function
  of the row `x[b, s, ·]` at every `(b, s)`.

  With real inputs every intermediate entry is a real (`rowq_isR`, `rowy_isR`): that is what lets a
  straight-through `y + (q(y) - y)` be replaced by `q(y)` at the second quantisation.
-/
import Idealize.ShloMosaic.Lib.ValueIdx
import proofs.«113498_j81621558493457_1_alg».proof.Proof.Quant

noncomputable section

namespace QDense

open Idealize.ShloMosaic Idealize.ShloMosaic.ValueIdx

/-- The input and the result, [4, 2048, 2048]; the weight matrix, [2048, 2048]; the bias, [2048]. -/
abbrev SX : Shape := ⟨3, ![4, 2048, 2048]⟩
abbrev SK : Shape := ⟨2, ![2048, 2048]⟩
abbrev SB : Shape := ⟨1, ![2048]⟩

/-- A row quantised against its own absolute maximum. -/
def rowq {n : ℕ} (g : Fin n → EReal) (d : Fin n) : EReal := qdq (g d) (scale (amax g))

/-- The quantised row times the weight matrix, plus the bias, negative entries cut to zero. -/
def rowy (g : Fin 2048 → EReal) (K : SK.Idx → EReal) (bq : Fin 2048 → EReal) (f : Fin 2048) : EReal :=
  max ((∑ d : Fin 2048, rowq g d * K (ix2 d f)) + bq f) c0

/-- … and quantised again, against the new row's absolute maximum. -/
def rowout (g : Fin 2048 → EReal) (K : SK.Idx → EReal) (bq : Fin 2048 → EReal) : Fin 2048 → EReal :=
  rowq (rowy g K bq)

/-- The layer's result as one function of the input, the quantised weights and the quantised bias. -/
def G (x : SX.Idx → EReal) (K : SK.Idx → EReal) (B : SB.Idx → EReal) : SX.Idx → EReal :=
  fun i => rowout (fun d => x (ix3 (i 0) (i 1) d)) K (fun f => B (ix1 f)) (i 2)

theorem rowq_isR {n : ℕ} {g : Fin n → EReal} (hg : ∀ d, IsR (g d)) (d : Fin n) : IsR (rowq g d) :=
  qdq_isR _ (scale_isR (amax_bot_or_real g hg))

theorem rowy_isR {g : Fin 2048 → EReal} {K : SK.Idx → EReal} {bq : Fin 2048 → EReal}
    (hg : ∀ d, IsR (g d)) (hK : ∀ i, IsR (K i)) (hb : ∀ f, IsR (bq f)) (f : Fin 2048) : IsR (rowy g K bq f) := by
  unfold rowy
  refine IsR.max (IsR.add (isR_sum _ _ fun d _ => (rowq_isR hg d).mul (hK _)) (hb f)) ?_
  rw [c0_eq]; exact isR_coe 0

end QDense

end
-- ==== Proof.RefValue.lean ====
/-
  The reference, read entry by entry: with real inputs its result is the per-row function `G` of the input, of
  its own quantised weights (the stage `val_main_v48`) and of its own quantised bias (the stage `val_main_v14`).
-/
import proofs.«113498_j81621558493457_1_alg».proof.Proof.Gen.ReferenceIdeal.Read
import proofs.«113498_j81621558493457_1_alg».proof.Proof.Spec

noncomputable section

namespace Cert.ReferenceIdeal.RefValue

open Idealize.ShloMosaic Idealize.ShloMosaic.ValueIdx Cert.ReferenceIdeal Cert.ReferenceIdeal.Read QDense

section Stages

variable (x0 : (⟨S4x2048x2048, .f32⟩ : BufTy).Contents (Elt Ideal)) (x1 : (⟨S2048x2048, .f32⟩ : BufTy).Contents (Elt Ideal))
  (x2 : (⟨S2048, .f32⟩ : BufTy).Contents (Elt Ideal))

/-! ## The absolute maxima -/

/-- A maximum-reduction, from the initial value -∞, of the absolute values of an array of reals is -∞ or a real,
    whatever axes it runs over: it is a fold of max over a finite set of reals. -/
theorem reduce_absmax_bot_or_real {s t : Shape} {axes : List (Fin s.rank)} (y : FVec Ideal s .f32) (hy : ∀ i, IsR (y i))
    (h' : s.ReducesTo axes t) (j : t.Idx) :
    Host.reduce (FloatOps.maximumf (F := Ideal) (φ := .f32)) (Host.absf (F := Ideal) y)
        (constant (F := Ideal) S_ .f32 0xFF800000#32) h' Gen.h_S_ j = ⊥
      ∨ IsR (Host.reduce (FloatOps.maximumf (F := Ideal) (φ := .f32)) (Host.absf (F := Ideal) y)
        (constant (F := Ideal) S_ .f32 0xFF800000#32) h' Gen.h_S_ j) := by
  rw [Host.reduce_eq_fold (FloatOps.maximumf (F := Ideal) (φ := .f32)) _ _ h' Gen.h_S_ j]
  show Finset.fold max cninf (fun i => max (y i) (-(y i))) _ = ⊥
    ∨ IsR (Finset.fold max cninf (fun i => max (y i) (-(y i))) _)
  rw [cninf_eq]
  exact fold_max_bot_or_real _ _ fun i _ => (hy i).max (hy i).neg

/-- The maximum over the last axis of the absolute values of a [4, 2048, 2048] array, at (b, s), is the absolute maximum
    of the row (b, s, ·). -/
theorem rowmax_eq (y : (⟨S4x2048x2048, .f32⟩ : BufTy).Contents (Elt Ideal)) (b : Fin 4) (s : Fin 2048) :
    Host.reduce (FloatOps.maximumf (F := Ideal) (φ := .f32)) (Host.absf (F := Ideal) y)
        (constant (F := Ideal) S_ .f32 0xFF800000#32) Gen.reducesTo_S4x2048x2048_S4x2048_d2 Gen.h_S_ (ix2 b s)
      = amax (fun d => y (ix3 b s d)) := by
  have h : S4x2048x2048.Reduces [2] S4x2048 := by decide
  have e : ∀ k : Fin 2048, h.lift (ix2 b s) k = ix3 b s k := fun k => funext fun a => Fin.ext (by
    match a with | ⟨0, _⟩ => rfl | ⟨1, _⟩ => rfl | ⟨2, _⟩ => rfl)
  rw [Host.reduce_eq_fold_single (FloatOps.maximumf (F := Ideal) (φ := .f32)) _ _
    Gen.reducesTo_S4x2048x2048_S4x2048_d2 h Gen.h_S_ (ix2 b s)]
  show Finset.fold max cninf (fun k : Fin 2048 => max (y (h.lift (ix2 b s) k)) (-(y (h.lift (ix2 b s) k)))) Finset.univ = _
  simp only [e]
  rfl

/-! ## The input, quantised row by row (stages 17 to 33) -/

/-- The step of the row an index lies in. -/
theorem v25_read (j : S4x2048x1.Idx) :
    val_main_v25 (F := Ideal) x0 j = scale (val_main_v18 (F := Ideal) x0 (idx_main_v19 j)) := by
  rw [val_main_v25_apply, val_main_v21_apply, val_main_v23_apply, val_main_v19_apply, val_main_v20_apply,
    val_main_v22_apply, val_main_v24_apply]
  rfl

/-- An entry, quantised against the step of its row. -/
theorem v31_read (i : S4x2048x2048.Idx) :
    val_main_v31 (F := Ideal) x0 i
      = qdq (x0 i) (scale (val_main_v18 (F := Ideal) x0 (idx_main_v19 (idx_main_v26 i)))) := by
  have e30 : val_main_v30 (F := Ideal) x0 = val_main_v26 (F := Ideal) x0 := rfl
  rw [val_main_v31_apply, e30, val_main_v29_apply, val_main_call5_v4_apply, val_main_call5_v2_apply,
    val_main_call5_v1_apply, val_main_v28_apply, val_main_v27_apply, val_main_v26_apply, v25_read]
  rw [val_main_call5_v3_apply, val_main_cst_10_apply, val_main_call5_v0_apply, val_main_cst_9_apply]
  simp only [Ideal.mulf_def, Ideal.minimumf_def, Ideal.maximumf_def, Ideal.hostUnary_roundeven_def, Ideal.hostDivf_def,
    Ideal.ofBits_def]
  rfl

/-- Stage 31 at (b, s, d) is the row (b, s, ·) quantised against its own absolute maximum, at d. -/
theorem v31_eq (b : Fin 4) (s : Fin 2048) (d : Fin 2048) :
    val_main_v31 (F := Ideal) x0 (ix3 b s d) = rowq (fun d' => x0 (ix3 b s d')) d := by
  have e : idx_main_v19 (idx_main_v26 (ix3 b s d)) = ix2 b s := funext fun a => Fin.ext (by
    match a with | ⟨0, _⟩ => rfl | ⟨1, _⟩ => rfl)
  rw [v31_read, e]
  show qdq _ (scale (Host.reduce (FloatOps.maximumf (F := Ideal) (φ := .f32)) (Host.absf (F := Ideal) x0)
    (constant (F := Ideal) S_ .f32 0xFF800000#32) Gen.reducesTo_S4x2048x2048_S4x2048_d2 Gen.h_S_ (ix2 b s))) = _
  rw [rowmax_eq]
  rfl

/-- The straight-through form of the quantised input is the quantised input, the input being real. -/
theorem v33_eq (h0 : ∀ i, IsR (x0 i)) (i : S4x2048x2048.Idx) :
    val_main_v33 (F := Ideal) x0 i = val_main_v31 (F := Ideal) x0 i := by
  rw [val_main_v33_apply, val_main_v32_apply]
  exact st_cancel (h0 i) _

/-! ## The weights, quantised column by column (stages 34 to 50) -/

theorem v42_read (j : S1x2048.Idx) :
    val_main_v42 (F := Ideal) x1 j = scale (val_main_v35 (F := Ideal) x1 (idx_main_v36 j)) := by
  rw [val_main_v42_apply, val_main_v38_apply, val_main_v40_apply, val_main_v36_apply, val_main_v37_apply,
    val_main_v39_apply, val_main_v41_apply]
  rfl

/-- A weight, quantised against the step of its column. -/
theorem v48_read (i : S2048x2048.Idx) :
    val_main_v48 (F := Ideal) x1 i
      = qdq (x1 i) (scale (val_main_v35 (F := Ideal) x1 (idx_main_v36 (idx_main_v43 i)))) := by
  have e47 : val_main_v47 (F := Ideal) x1 = val_main_v43 (F := Ideal) x1 := rfl
  rw [val_main_v48_apply, e47, val_main_v46_apply, val_main_call8_v4_apply, val_main_call8_v2_apply,
    val_main_call8_v1_apply, val_main_v45_apply, val_main_v44_apply, val_main_v43_apply, v42_read]
  rw [val_main_call8_v3_apply, val_main_cst_16_apply, val_main_call8_v0_apply, val_main_cst_15_apply]
  simp only [Ideal.mulf_def, Ideal.minimumf_def, Ideal.maximumf_def, Ideal.hostUnary_roundeven_def, Ideal.hostDivf_def,
    Ideal.ofBits_def]
  rfl

/-- Every quantised weight is a real: a clamped value times a positive real step. -/
theorem v48_isR (h1 : ∀ i, IsR (x1 i)) (i : S2048x2048.Idx) : IsR (val_main_v48 (F := Ideal) x1 i) := by
  rw [v48_read]
  exact qdq_isR _ (scale_isR (reduce_absmax_bot_or_real x1 h1 Gen.reducesTo_S2048x2048_S2048_d0 _))

theorem v50_eq (h1 : ∀ i, IsR (x1 i)) (i : S2048x2048.Idx) :
    val_main_v50 (F := Ideal) x1 i = val_main_v48 (F := Ideal) x1 i := by
  rw [val_main_v50_apply, val_main_v49_apply]
  exact st_cancel (h1 i) _

/-! ## The bias, quantised as one vector (stages 0 to 16) -/

theorem v8_read (j : S1.Idx) :
    val_main_v8 (F := Ideal) x2 j = scale (val_main_v1 (F := Ideal) x2 (idx_main_v2 j)) := by
  rw [val_main_v8_apply, val_main_v4_apply, val_main_v6_apply, val_main_v2_apply, val_main_v3_apply,
    val_main_v5_apply, val_main_v7_apply]
  rfl

/-- A bias entry, quantised against the vector's step. -/
theorem v14_read (i : S2048.Idx) :
    val_main_v14 (F := Ideal) x2 i
      = qdq (x2 i) (scale (val_main_v1 (F := Ideal) x2 (idx_main_v2 (idx_main_v9 i)))) := by
  have e13 : val_main_v13 (F := Ideal) x2 = val_main_v9 (F := Ideal) x2 := rfl
  rw [val_main_v14_apply, e13, val_main_v12_apply, val_main_call2_v4_apply, val_main_call2_v2_apply,
    val_main_call2_v1_apply, val_main_v11_apply, val_main_v10_apply, val_main_v9_apply, v8_read]
  rw [val_main_call2_v3_apply, val_main_cst_4_apply, val_main_call2_v0_apply, val_main_cst_3_apply]
  simp only [Ideal.mulf_def, Ideal.minimumf_def, Ideal.maximumf_def, Ideal.hostUnary_roundeven_def, Ideal.hostDivf_def,
    Ideal.ofBits_def]
  rfl

/-- Every quantised bias entry is a real. -/
theorem v14_isR (h2 : ∀ i, IsR (x2 i)) (i : S2048.Idx) : IsR (val_main_v14 (F := Ideal) x2 i) := by
  rw [v14_read]
  exact qdq_isR _ (scale_isR (reduce_absmax_bot_or_real x2 h2 Gen.reducesTo_S2048_S_d0 _))

theorem v16_eq (h2 : ∀ i, IsR (x2 i)) (i : S2048.Idx) :
    val_main_v16 (F := Ideal) x2 i = val_main_v14 (F := Ideal) x2 i := by
  rw [val_main_v16_apply, val_main_v15_apply]
  exact st_cancel (h2 i) _

/-! ## The layer before its second quantisation (stages 51 to 55) -/

/-- Stage 55 at (b, s, f): the quantised row (b, s, ·) contracted with the quantised weights' column f, plus the
    quantised bias at f, cut at zero. -/
theorem v55_eq (h0 : ∀ i, IsR (x0 i)) (h1 : ∀ i, IsR (x1 i)) (h2 : ∀ i, IsR (x2 i))
    (b : Fin 4) (s : Fin 2048) (f : Fin 2048) :
    val_main_v55 (F := Ideal) x0 x1 x2 (ix3 b s f)
      = rowy (fun d => x0 (ix3 b s d)) (val_main_v48 (F := Ideal) x1) (fun f' => val_main_v14 (F := Ideal) x2 (ix1 f')) f := by
  have el : ∀ k : Fin 2048, lidx_main_v51 (ix3 b s f) k = ix3 b s k := fun k => funext fun a => Fin.ext (by
    match a with | ⟨0, _⟩ => rfl | ⟨1, _⟩ => rfl | ⟨2, _⟩ => rfl)
  have er : ∀ k : Fin 2048, ridx_main_v51 (ix3 b s f) k = ix2 k f := fun k => funext fun a => Fin.ext (by
    match a with | ⟨0, _⟩ => rfl | ⟨1, _⟩ => rfl)
  have eb : idx_main_v52 (idx_main_v53 (ix3 b s f)) = ix1 f := funext fun a => Fin.ext (by
    match a with | ⟨0, _⟩ => rfl)
  rw [val_main_v55_apply, val_main_v54_apply, val_main_v51_apply, val_main_v53_apply, val_main_v52_apply,
    val_main_call9_v0_apply, eb, v16_eq x2 h2]
  simp only [el, er, v33_eq x0 h0, v50_eq x1 h1, v31_eq]
  rfl

/-- Every entry of stage 55 is a real. -/
theorem v55_isR (h0 : ∀ i, IsR (x0 i)) (h1 : ∀ i, IsR (x1 i)) (h2 : ∀ i, IsR (x2 i))
    (b : Fin 4) (s : Fin 2048) (f : Fin 2048) : IsR (val_main_v55 (F := Ideal) x0 x1 x2 (ix3 b s f)) := by
  rw [v55_eq x0 x1 x2 h0 h1 h2]
  exact rowy_isR (fun d => h0 _) (v48_isR x1 h1) (fun f' => v14_isR x2 h2 _) f

/-! ## The second quantisation (stages 56 to 72) -/

/-- Stages 56 to 70 do to stage 55 what stages 17 to 31 do to the input. -/
theorem v70_eq_v31 :
    val_main_v70 (F := Ideal) x0 x1 x2 = val_main_v31 (F := Ideal) (val_main_v55 (F := Ideal) x0 x1 x2) := rfl

/-- Stage 70 at (b, s, f) is the row (b, s, ·) of stage 55 quantised against its own absolute maximum, at f. -/
theorem v70_eq (b : Fin 4) (s : Fin 2048) (f : Fin 2048) :
    val_main_v70 (F := Ideal) x0 x1 x2 (ix3 b s f)
      = rowq (fun f' => val_main_v55 (F := Ideal) x0 x1 x2 (ix3 b s f')) f := by
  rw [v70_eq_v31]
  exact v31_eq _ b s f

end Stages

/-- The reference's result is `G` of its arguments. -/
theorem ref_eq (x0 : (⟨S4x2048x2048, .f32⟩ : BufTy).Contents (Elt Ideal)) (x1 : (⟨S2048x2048, .f32⟩ : BufTy).Contents (Elt Ideal))
    (x2 : (⟨S2048, .f32⟩ : BufTy).Contents (Elt Ideal))
    (h0 : ∀ i, IsR (x0 i)) (h1 : ∀ i, IsR (x1 i)) (h2 : ∀ i, IsR (x2 i)) :
    val_main_v72 (F := Ideal) x0 x1 x2 = G x0 (val_main_v48 (F := Ideal) x1) (val_main_v14 (F := Ideal) x2) := by
  funext i
  obtain ⟨b, s, f, rfl⟩ : ∃ (b : Fin 4) (s : Fin 2048) (f : Fin 2048), i = ix3 b s f := ⟨i 0, i 1, i 2, eq_ix3 i⟩
  rw [val_main_v72_apply, val_main_v71_apply]
  refine (st_cancel (v55_isR x0 x1 x2 h0 h1 h2 b s f) _).trans ?_
  rw [v70_eq]
  simp only [v55_eq x0 x1 x2 h0 h1 h2]
  rfl

end Cert.ReferenceIdeal.RefValue

end
-- ==== Proof.KernelHost.lean ====
/-
  What the kernel's region finds in its three input arrays, as functions of the arguments.

  Before the region the host quantises the weight matrix per column and the bias as one vector — the same chain of
  operations the reference applies before its straight-through step, so the two arrays are the reference's own
  stages `val_main_v48` (weights) and `val_main_v14` (bias, re-laid as one row) — and re-lays the [4, 2048, 2048]
  input as 8192 rows: row `b · 2048 + s` of the re-laid array is row `(b, s)` of the input.
-/
import proofs.«113498_j81621558493457_1_alg».proof.Proof.Gen.KernelIdeal.Frame
import proofs.«113498_j81621558493457_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostPrefix

open Idealize.ShloMosaic Idealize.ShloMosaic.TcCoe Idealize.SL.Sem Idealize.ShloMosaic.StableHlo
open Idealize.ShloMosaic.ValueIdx Cert.KernelIdeal Cert.KernelIdeal.Gen

variable (m : (ℓ : Loc nD τ sig) → Buf (Elt Ideal) ℓ)

/-! The operations of the functions jax outlines (`_where`, `round`, `clip` and their second copies), written with the
    plain operation builders: carrying a value to its buffer's own type and back is the identity, so each list is
    the printed one. -/

theorem hostOps0_1_plain : (hostOps0_1 : List (HloOp τ sig (Elt Ideal))) =
    [ StableHlo.ternary main_v4 main_v6 main_v7 main_v8 (select : (⟨S1x2048, .i1⟩ : BufTy).Contents (Elt Ideal) → (⟨S1x2048, .f32⟩ : BufTy).Contents (Elt Ideal) → (⟨S1x2048, .f32⟩ : BufTy).Contents (Elt Ideal) → (⟨S1x2048, .f32⟩ : BufTy).Contents (Elt Ideal)) ] := rfl

theorem hostOps0_3_plain : (hostOps0_3 : List (HloOp τ sig (Elt Ideal))) =
    [ StableHlo.unary main_v10 main_v11 (Host.roundeven (F := Ideal) (φ := .f32) : (⟨S2048x2048, .f32⟩ : BufTy).Contents (Elt Ideal) → (⟨S2048x2048, .f32⟩ : BufTy).Contents (Elt Ideal)) ] := rfl

theorem hostOps0_5_plain : (hostOps0_5 : List (HloOp τ sig (Elt Ideal))) =
    [ StableHlo.unary main_cst_3 main_call2_v0 (id : (⟨S_, .f32⟩ : BufTy).Contents (Elt Ideal) → (⟨S_, .f32⟩ : BufTy).Contents (Elt Ideal)),
      StableHlo.unary main_call2_v0 main_call2_v1 (broadcastInDim S2048x2048 ![] bcast_S_S2048x2048 : (⟨S_, .f32⟩ : BufTy).Contents (Elt Ideal) → (⟨S2048x2048, .f32⟩ : BufTy).Contents (Elt Ideal)),
      StableHlo.binary main_call2_v1 main_v11 main_call2_v2 (maximumf (F := Ideal) (φ := .f32) : (⟨S2048x2048, .f32⟩ : BufTy).Contents (Elt Ideal) → (⟨S2048x2048, .f32⟩ : BufTy).Contents (Elt Ideal) → (⟨S2048x2048, .f32⟩ : BufTy).Contents (Elt Ideal)),
      StableHlo.unary main_cst_4 main_call2_v3 (id : (⟨S_, .f32⟩ : BufTy).Contents (Elt Ideal) → (⟨S_, .f32⟩ : BufTy).Contents (Elt Ideal)),
      StableHlo.unary main_call2_v3 main_call2_v4 (broadcastInDim S2048x2048 ![] bcast_S_S2048x2048 : (⟨S_, .f32⟩ : BufTy).Contents (Elt Ideal) → (⟨S2048x2048, .f32⟩ : BufTy).Contents (Elt Ideal)),
      StableHlo.binary main_call2_v4 main_call2_v2 main_v12 (minimumf (F := Ideal) (φ := .f32) : (⟨S2048x2048, .f32⟩ : BufTy).Contents (Elt Ideal) → (⟨S2048x2048, .f32⟩ : BufTy).Contents (Elt Ideal) → (⟨S2048x2048, .f32⟩ : BufTy).Contents (Elt Ideal)) ] := rfl

theorem hostOps0_7_plain : (hostOps0_7 : List (HloOp τ sig (Elt Ideal))) =
    [ StableHlo.ternary main_v20 main_v22 main_v23 main_v24 (select : (⟨S1, .i1⟩ : BufTy).Contents (Elt Ideal) → (⟨S1, .f32⟩ : BufTy).Contents (Elt Ideal) → (⟨S1, .f32⟩ : BufTy).Contents (Elt Ideal) → (⟨S1, .f32⟩ : BufTy).Contents (Elt Ideal)) ] := rfl

theorem hostOps0_9_plain : (hostOps0_9 : List (HloOp τ sig (Elt Ideal))) =
    [ StableHlo.unary main_v26 main_v27 (Host.roundeven (F := Ideal) (φ := .f32) : (⟨S2048, .f32⟩ : BufTy).Contents (Elt Ideal) → (⟨S2048, .f32⟩ : BufTy).Contents (Elt Ideal)) ] := rfl

theorem hostOps0_11_plain : (hostOps0_11 : List (HloOp τ sig (Elt Ideal))) =
    [ StableHlo.unary main_cst_9 main_call5_v0 (id : (⟨S_, .f32⟩ : BufTy).Contents (Elt Ideal) → (⟨S_, .f32⟩ : BufTy).Contents (Elt Ideal)),
      StableHlo.unary main_call5_v0 main_call5_v1 (broadcastInDim S2048 ![] bcast_S_S2048 : (⟨S_, .f32⟩ : BufTy).Contents (Elt Ideal) → (⟨S2048, .f32⟩ : BufTy).Contents (Elt Ideal)),
      StableHlo.binary main_call5_v1 main_v27 main_call5_v2 (maximumf (F := Ideal) (φ := .f32) : (⟨S2048, .f32⟩ : BufTy).Contents (Elt Ideal) → (⟨S2048, .f32⟩ : BufTy).Contents (Elt Ideal) → (⟨S2048, .f32⟩ : BufTy).Contents (Elt Ideal)),
      StableHlo.unary main_cst_10 main_call5_v3 (id : (⟨S_, .f32⟩ : BufTy).Contents (Elt Ideal) → (⟨S_, .f32⟩ : BufTy).Contents (Elt Ideal)),
      StableHlo.unary main_call5_v3 main_call5_v4 (broadcastInDim S2048 ![] bcast_S_S2048 : (⟨S_, .f32⟩ : BufTy).Contents (Elt Ideal) → (⟨S2048, .f32⟩ : BufTy).Contents (Elt Ideal)),
      StableHlo.binary main_call5_v4 main_call5_v2 main_v28 (minimumf (F := Ideal) (φ := .f32) : (⟨S2048, .f32⟩ : BufTy).Contents (Elt Ideal) → (⟨S2048, .f32⟩ : BufTy).Contents (Elt Ideal) → (⟨S2048, .f32⟩ : BufTy).Contents (Elt Ideal)) ] := rfl

/-- The quantised weights before their change of format: the reference's quantised weights of the same argument. -/
theorem V_weights_f32 (c : Dev nD) :
    (V m c main_v14 : S2048x2048.Idx → EReal)
      = Cert.ReferenceIdeal.Read.val_main_v48 (F := Ideal) (m ((c : Thread nD τ).loc main_arg1)) := by
  dsimp only [V, V0]
  simp only [hostOps0_1_plain, hostOps0_3_plain, hostOps0_5_plain, hostOps0_7_plain, hostOps0_9_plain, hostOps0_11_plain, hostOps0, hostOps0_2, hostOps0_4, hostOps0_6, hostOps0_8, hostOps0_10, hostOps0_12, List.flatten_cons, List.flatten_nil, List.append_nil, List.cons_append, List.nil_append]
  after_results_simp
  rfl

/-- The weight array the region stages is that array narrowed to bf16 — on the extended reals, the same array. -/
theorem V_weights (c : Dev nD) :
    (V m c main_v15 : S2048x2048.Idx → EReal)
      = Cert.ReferenceIdeal.Read.val_main_v48 (F := Ideal) (m ((c : Thread nD τ).loc main_arg1)) := by
  have h : (V m c main_v15 : S2048x2048.Idx → EReal)
      = truncf (F := Ideal) .bf16 (V m c main_v14 : FVec Ideal S2048x2048 .f32) bitsLt_bf16_f32 := by
    dsimp only [V, V0]
    simp only [hostOps0_1_plain, hostOps0_3_plain, hostOps0_5_plain, hostOps0_7_plain, hostOps0_9_plain, hostOps0_11_plain, hostOps0, hostOps0_2, hostOps0_4, hostOps0_6, hostOps0_8, hostOps0_10, hostOps0_12, List.flatten_cons, List.flatten_nil, List.append_nil, List.cons_append, List.nil_append]
    after_results_simp <;> rfl
  rw [h, V_weights_f32]
  funext i
  rfl

/-- The bias row the region stages: the reference's quantised bias, re-laid as [1, 2048]. -/
theorem V_bias (c : Dev nD) :
    (V m c main_v31 : S1x2048.Idx → EReal)
      = shapeCast S1x2048 (Cert.ReferenceIdeal.Read.val_main_v14 (F := Ideal) (m ((c : Thread nD τ).loc main_arg2))) shapeCasts_S2048_S1x2048 := by
  dsimp only [V, V0]
  simp only [hostOps0_1_plain, hostOps0_3_plain, hostOps0_5_plain, hostOps0_7_plain, hostOps0_9_plain, hostOps0_11_plain, hostOps0, hostOps0_2, hostOps0_4, hostOps0_6, hostOps0_8, hostOps0_10, hostOps0_12, List.flatten_cons, List.flatten_nil, List.append_nil, List.cons_append, List.nil_append]
  after_results_simp
  rfl

/-- The input the region stages: the argument re-laid as [8192, 2048]. -/
theorem V_input (c : Dev nD) :
    (V m c main_v32 : S8192x2048.Idx → EReal)
      = shapeCast S8192x2048 (m ((c : Thread nD τ).loc main_arg0)) shapeCasts_S4x2048x2048_S8192x2048 := by
  dsimp only [V, V0]
  simp only [hostOps0_1_plain, hostOps0_3_plain, hostOps0_5_plain, hostOps0_7_plain, hostOps0_9_plain, hostOps0_11_plain, hostOps0, hostOps0_2, hostOps0_4, hostOps0_6, hostOps0_8, hostOps0_10, hostOps0_12, List.flatten_cons, List.flatten_nil, List.append_nil, List.cons_append, List.nil_append]
  after_results_simp
  rfl

/-- Entry `(0, f)` of the bias row is entry `f` of the quantised bias. -/
theorem V_bias_apply (c : Dev nD) (f : Fin 2048) :
    V m c main_v31 (ix2 (0 : Fin 1) f)
      = Cert.ReferenceIdeal.Read.val_main_v14 (F := Ideal) (m ((c : Thread nD τ).loc main_arg2)) (ix1 f) := by
  rw [V_bias]
  exact shapeCast_a_1a_apply _ _ 0 f

/-- Row `b · 2048 + s` of the re-laid input is row `(b, s)` of the argument. -/
theorem V_input_apply (c : Dev nD) (b : Fin 4) (s : Fin 2048) (d : Fin 2048) (r : Fin 8192) (hr : r.val = b.val * 2048 + s.val) :
    V m c main_v32 (ix2 r d) = m ((c : Thread nD τ).loc main_arg0) (ix3 b s d) := by
  rw [V_input]
  refine shapeCast_apply _ _ _ _ ?_
  show (S4x2048x2048.rowMajor (ix3 b s d)).val = (S8192x2048.rowMajor (ix2 r d)).val
  rw [Shape.rowMajor_val_three, Shape.rowMajor_val_two]
  show (b.val * 2048 + s.val) * 2048 + d.val = r.val * 2048 + d.val
  rw [hr]

end Cert.KernelIdeal.HostPrefix

end
-- ==== Proof.KernelBlock.lean ====
/-
  One block of the kernel, entry by entry: what the body stores into its output block at row `p`, column `q` is the
  per-row function `rowout` of row `p` of the input block, the whole weight block and the bias row.
-/
import proofs.«113498_j81621558493457_1_alg».proof.Proof.Gen.KernelIdeal.Frame
import proofs.«113498_j81621558493457_1_alg».proof.Proof.Spec
import Idealize.ShloMosaic.Lib.Pipeline.Value
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen QDense

/-! ## Layout operations at coordinates -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b columns reads, at (p, c), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row maximum -/

/-- The maximum along axis 1 of a [256, 2048] array, read at row p: the fold of max over that row from the
    accumulator's value. -/
theorem rowmax_apply (src : FVec Ideal S256x2048 .f32) (hφ : FKind.Formats .f32)
    (hacc : (0xFF800000#32 : BitVec 32) = FKind.maximumf.neutral .f32 hφ) (p : Fin 256) :
    multiReduction (F := Ideal) .maximumf [1] S256 src 0xFF800000#32 reduces_S256x2048_S256 hφ hacc (ix1 p)
      = (Finset.univ : Finset (Fin 2048)).fold max cninf (fun k => src (ix2 p k)) := by
  refine (Ideal.multiReduction_maximumf_single src 0xFF800000#32 reduces_S256x2048_S256 hφ hacc (ix1 p)).trans ?_
  show (Finset.univ : Finset (Fin 2048)).fold max cninf (fun k => src (reduces_S256x2048_S256.lift (ix1 p) k)) = _
  refine congrArg (fun g : Fin 2048 → EReal => (Finset.univ : Finset (Fin 2048)).fold max cninf g) (funext fun k => ?_)
  exact congrArg src (funext fun a => Fin.ext (by
    match a with
    | ⟨0, _⟩ => rfl
    | ⟨1, _⟩ => rfl))

/-- The absolute maximum of row p as the body takes it: absolute values, the maximum along axis 1, the result
    viewed as a column. -/
theorem amaxCol_apply (w : FVec Ideal S256x2048 .f32) (p : Fin 256) (u : Fin 1) :
    shapeCast S256x1 (multiReduction (F := Ideal) .maximumf [1] S256 (absf w) 0xFF800000#32 reduces_S256x2048_S256 (.inl rfl) rfl)
        shapeCasts_S256_S256x1 (ix2 p u)
      = amax (fun f => w (ix2 p f)) := by
  refine (shapeCast_a_a1_apply _ shapeCasts_S256_S256x1 p u).trans ?_
  refine (rowmax_apply (absf w) _ _ p).trans ?_
  rfl

/-! ## The product with the weight block -/

/-- The operands' coordinates at output index i and contraction index q: the left operand is read at (i 0, q), the
    right operand at (q, i 1). -/
theorem lhs_mm_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_mm_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_mm_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_mm_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The product into the zero block, read at (p, f): the sum over the contracted coordinate d of the left operand at
    (p, d) times the right operand at (d, f). -/
theorem mm_apply (A : FVec Ideal S256x2048 .bf16) (B : FVec Ideal S2048x2048 .bf16) (p : Fin 256) (f : Fin 2048) :
    matmul dot_S256x2048_S2048x2048_S256x2048_1_0_0_1_n_n none A B (constant (F := Ideal) S256x2048 .f32 0x00000000#32) (ix2 p f)
      = ∑ d : Fin 2048, A (ix2 p d) * B (ix2 d f) := by
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p f) ((ValueIdx.contrEquiv1 dot_S256x2048_S2048x2048_S256x2048_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S256x2048_S2048x2048_S256x2048_1_0_0_1_n_n.rhsIdx (ix2 p f) ((ValueIdx.contrEquiv1 dot_S256x2048_S2048x2048_S256x2048_1_0_0_1_n_n 2048 rfl rfl).symm k) = ix2 k f := funext fun a => Fin.ext (by
    match a with
    | ⟨0, _⟩ => exact (rhs_mm_0 _ _).trans hk
    | ⟨1, _⟩ => exact rhs_mm_1 _ _)
  rw [el, er]

/-! ## The arithmetic at a coordinate -/

/-- Rounding to the nearest integer, ties to even, is taken entry by entry. -/
theorem roundeven_apply {s : Shape} {φ : FTy} (a : FVec Ideal s φ) (i : s.Idx) :
    roundeven a i = Ideal.liftRound Ideal.roundHalfEven (a i) := rfl

/-- The step column: where the column m is positive its 127th part, elsewhere one. -/
theorem step_apply (m : FVec Ideal S256x1 .f32) (j : S256x1.Idx) :
    select (cmpf .ogt m (broadcast S256x1 (Scalar.ofBits .f32 0x00000000#32)))
        (divf m (broadcast S256x1 (Scalar.ofBits .f32 0x42FE0000#32)))
        (broadcast S256x1 (Scalar.ofBits .f32 0x3F800000#32)) j
      = scale (m j) := rfl

/-- A block divided by a step column, rounded, clamped and multiplied by the step again: entry (p, d) is the
    quantise–dequantise of the entry against row p's step. -/
theorem quant_apply (w : FVec Ideal S256x2048 .f32) (s : FVec Ideal S256x1 .f32) (p : Fin 256) (d : Fin 2048) :
    mulf (minimumf (broadcast S256x2048 (Scalar.ofBits .f32 0x42FE0000#32))
            (maximumf (broadcast S256x2048 (Scalar.ofBits .f32 0xC2FE0000#32))
              (roundeven (divf w (broadcastTo S256x2048 s broadcasts_S256x1_S256x2048)))))
        (broadcastTo S256x2048 s broadcasts_S256x1_S256x2048) (ix2 p d)
      = qdq (w (ix2 p d)) (s (ix2 p (0 : Fin 1))) := by
  rw [mulf_apply, minimumf_apply, maximumf_apply, roundeven_apply, divf_apply, broadcast_apply, broadcast_apply,
    broadcastTo_a1_ab_apply]
  rfl

/-! ## The payloads -/

/-- The first half of the body: row p of the input block quantised against its own absolute maximum, times the
    weight block, plus the bias row, negative entries cut to zero. -/
theorem pay2_apply (x0 : FVec Ideal S256x2048 .f32) (x1 : FVec Ideal S2048x2048 .bf16) (x2 : FVec Ideal S1x2048 .f32)
    (p : Fin 256) (f : Fin 2048) :
    k0_pay2 (F := Ideal) x0 x1 x2 (ix2 p f)
      = rowy (fun d => x0 (ix2 p d)) x1 (fun f' => x2 (ix2 (0 : Fin 1) f')) f := by
  unfold k0_pay2
  rw [shapeCast_self x0, shapeCast_self x1, shapeCast_self x2]
  rw [maximumf_apply, addf_apply, broadcast_apply, mm_apply, broadcastTo_1b_ab_apply]
  unfold rowy
  refine congrArg (fun t : EReal => max (t + x2 (ix2 (0 : Fin 1) f)) c0) (Finset.sum_congr rfl fun d _ => ?_)
  -- the conversion to the narrower format keeps the value
  rw [truncf_apply, quant_apply, step_apply, amaxCol_apply]
  rfl

/-- The second step column: at (p, u) the step of the absolute maximum of row p of the first half's result. -/
theorem pay3_apply (x0 : FVec Ideal S256x2048 .f32) (x1 : FVec Ideal S2048x2048 .bf16) (x2 : FVec Ideal S1x2048 .f32)
    (p : Fin 256) (u : Fin 1) :
    k0_pay3 (F := Ideal) x0 x1 x2 (ix2 p u) = scale (amax (fun f => k0_pay2 (F := Ideal) x0 x1 x2 (ix2 p f))) := by
  unfold k0_pay3
  rw [step_apply, amaxCol_apply]

/-- The first half's result divided by its row's step. -/
theorem pay4_apply (x0 : FVec Ideal S256x2048 .f32) (x1 : FVec Ideal S2048x2048 .bf16) (x2 : FVec Ideal S1x2048 .f32)
    (p : Fin 256) (q : Fin 2048) :
    k0_pay4 (F := Ideal) x0 x1 x2 (ix2 p q)
      = Ideal.div (k0_pay2 (F := Ideal) x0 x1 x2 (ix2 p q)) (k0_pay3 (F := Ideal) x0 x1 x2 (ix2 p (0 : Fin 1))) := by
  unfold k0_pay4
  rw [divf_apply, broadcastTo_a1_ab_apply]

/-- The stored value: the quotient rounded, clamped and multiplied by the row's step. -/
theorem pay1_apply (s : FVec Ideal S256x1 .f32) (v : FVec Ideal S256x2048 .f32) (p : Fin 256) (q : Fin 2048) :
    k0_pay1 (F := Ideal) s v (ix2 p q)
      = min c127 (max cm127 (Ideal.liftRound Ideal.roundHalfEven (v (ix2 p q)))) * s (ix2 p (0 : Fin 1)) := by
  unfold k0_pay1
  rw [mulf_apply, minimumf_apply, maximumf_apply, roundeven_apply, broadcast_apply, broadcast_apply,
    broadcastTo_a1_ab_apply]
  rfl

/-- The body's output block at `(p, q)`. -/
theorem out0_3_apply (x0 : FVec Ideal S256x2048 .f32) (x1 : FVec Ideal S2048x2048 .bf16) (x2 : FVec Ideal S1x2048 .f32)
    (p : Fin 256) (q : Fin 2048) :
    out0_3 (F := Ideal) x0 x1 x2 (ix2 p q)
      = rowout (fun d => x0 (ix2 p d)) x1 (fun f => x2 (ix2 (0 : Fin 1) f)) q := by
  have hz : (![0, 0] : Fin 2 → Nat) = fun _ => 0 := funext fun a => by fin_cases a <;> rfl
  unfold out0_3
  rw [View.canon_unit_zero hz]
  simp only [View.ld_unit_zero (S := S256x2048) hz, View.ld_unit_zero (S := S2048x2048) hz,
    View.ld_unit_zero (S := S1x2048) hz]
  rw [pay1_apply, pay4_apply, pay3_apply]
  simp only [pay2_apply]
  rfl

end Cert.KernelIdeal.Block

end
-- ==== Proof.KernelFinal.lean ====
/-
  From the kernel's blocks to its result.

  Grid point `t` (of 32) stages rows `256·t … 256·t + 255` of the re-laid input, the whole weight array and the
  whole bias row, and writes back rows `256·t … 256·t + 255` of the output. Row `p` of that block is the per-row
  function `rowout` of row `256·t + p` of the input, so the 32 blocks are the restrictions of ONE function `G2` of
  the arrays the region finds; the blocks tile the [8192, 2048] output, so after the run the output array IS
  `G2`. The last host operation re-lays it as [4, 2048, 2048]: entry `(b, s, f)` is entry `(2048·b + s, f)` of
  `G2`, which is the layer's function `G` of the arguments at `(b, s, f)`.
-/
import proofs.«113498_j81621558493457_1_alg».proof.Proof.KernelHost
import proofs.«113498_j81621558493457_1_alg».proof.Proof.KernelBlock
import proofs.«113498_j81621558493457_1_alg».proof.Proof.Spec
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.SL.Sem Idealize.ShloMosaic.StableHlo
open Idealize.ShloMosaic.ValueIdx Cert.KernelIdeal Cert.KernelIdeal.Gen Cert.KernelIdeal.HostPrefix QDense
open Idealize.ShloMosaic.Pipeline (Dat Cfg Window)

variable (m : (ℓ : Loc nD τ sig) → Buf (Elt Ideal) ℓ) (ρ : Dev nD → PrngReg)

/-- One function of three arrays — the re-laid input, the weights, the bias row —: each row of the result is the
    per-row function of the same row of the input. -/
def G2of (X : S8192x2048.Idx → EReal) (K : S2048x2048.Idx → EReal) (B : S1x2048.Idx → EReal) : S8192x2048.Idx → EReal :=
  fun i => rowout (fun d => X (ix2 (i 0) d)) K (fun f => B (ix2 (0 : Fin 1) f)) (i 1)

theorem G2of_apply (X : S8192x2048.Idx → EReal) (K : S2048x2048.Idx → EReal) (B : S1x2048.Idx → EReal) (r : Fin 8192) (q : Fin 2048) :
    G2of X K B (ix2 r q) = rowout (fun d => X (ix2 r d)) K (fun f => B (ix2 (0 : Fin 1) f)) q := rfl

/-- The region's output array as that function of the three arrays the region finds. -/
def G2 (c : Dev nD) : S8192x2048.Idx → EReal := G2of (V m c main_v32) (V m c main_v15) (V m c main_v31)

/-- The index maps over the grid: input and output blocks move down the rows with the point, the weights and the
    bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The arrays the three input windows stage are the re-laid input, the weights and the bias row. -/
theorem arr_input (c : Dev nD) : V m c (Pipeline.arrRef spec0 0) = V m c main_v32 := rfl
theorem arr_weights (c : Dev nD) : V m c (Pipeline.arrRef spec0 1) = V m c main_v15 := rfl
theorem arr_bias (c : Dev nD) : V m c (Pipeline.arrRef spec0 2) = V m c main_v31 := rfl

/-- Row `p` of the input block at point `t` is row `256·t + p` of the re-laid input. -/
theorem blk_input (c : Dev nD) (t : Fin cfg0.N) (p : Fin 256) (d : Fin 2048) (r : Fin 8192) (hr : r.val = t.val * 256 + p.val) :
    iblk m c 0 t (ix2 p d) = V m c main_v32 (ix2 r d) := by
  obtain ⟨e00, e01, -⟩ := idx_facts t
  have he : ((cfg0.win 0).blk t).view.emb (ix2 p d) = ix2 r d := by
    funext a; apply Fin.ext
    match a with
    | ⟨0, _⟩ => show win0_0.index t (0 : Fin 2) * 256 + 1 * p.val = r.val; omega
    | ⟨1, _⟩ => show win0_0.index t (1 : Fin 2) * 2048 + 1 * d.val = d.val; omega
  refine Eq.trans ?_ (congrFun (arr_input m c) (ix2 r d))
  unfold iblk
  generalize V m c (Pipeline.arrRef spec0 0) = A
  rw [View.read_apply]
  exact eq_of_heq ((cast_heq _ _).trans (heq_of_eq (congrArg A he)))

/-- The weight block at every point is the whole weight array. -/
theorem blk_weights (c : Dev nD) (t : Fin cfg0.N) (y : S2048x2048.Idx) :
    iblk m c 1 t y = V m c main_v15 y := by
  obtain ⟨-, -, e10, e11, -⟩ := idx_facts t
  have he : ((cfg0.win 1).blk t).view.emb y = y := by
    funext a; apply Fin.ext
    match a with
    | ⟨0, _⟩ => show win0_1.index t (0 : Fin 2) * 2048 + 1 * (y 0).val = (y 0).val; omega
    | ⟨1, _⟩ => show win0_1.index t (1 : Fin 2) * 2048 + 1 * (y 1).val = (y 1).val; omega
  refine Eq.trans ?_ (congrFun (arr_weights m c) y)
  unfold iblk
  generalize V m c (Pipeline.arrRef spec0 1) = A
  rw [View.read_apply]
  exact eq_of_heq ((cast_heq _ _).trans (heq_of_eq (congrArg A he)))

/-- The bias block at every point is the whole bias row. -/
theorem blk_bias (c : Dev nD) (t : Fin cfg0.N) (y : S1x2048.Idx) :
    iblk m c 2 t y = V m c main_v31 y := by
  obtain ⟨-, -, -, -, e20, e21, -⟩ := idx_facts t
  have he : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 2048 + 1 * (y 1).val = (y 1).val; omega
  refine Eq.trans ?_ (congrFun (arr_bias m c) y)
  unfold iblk
  generalize V m c (Pipeline.arrRef spec0 2) = A
  rw [View.read_apply]
  exact eq_of_heq ((cast_heq _ _).trans (heq_of_eq (congrArg A he)))

/-- Entry `(p, q)` of what the body leaves at point `t` is entry `(256·t + p, q)` of `G2`. -/
theorem out_at (c : Dev nD) (t : Fin cfg0.N) (p : Fin 256) (q : Fin 2048) (r : Fin 8192) (hr : r.val = t.val * 256 + p.val) :
    out0_3 (F := Ideal) (iblk m c 0 t) (iblk m c 1 t) (iblk m c 2 t) (ix2 p q) = G2 m c (ix2 r q) := by
  refine (Cert.KernelIdeal.Block.out0_3_apply (iblk m c 0 t) (iblk m c 1 t) (iblk m c 2 t) p q).trans ?_
  have e0 : (fun d => iblk m c 0 t (ix2 p d)) = fun d => V m c main_v32 (ix2 r d) :=
    funext fun d => blk_input m c t p d r hr
  have e1 : (iblk m c 1 t : S2048x2048.Idx → EReal) = V m c main_v15 := funext fun y => blk_weights m c t y
  have e2 : (fun f => iblk m c 2 t (ix2 (0 : Fin 1) f)) = fun f => V m c main_v31 (ix2 (0 : Fin 1) f) :=
    funext fun f => blk_bias m c t _
  rw [e0, e1, e2]
  unfold G2
  rw [G2of_apply]

/-- What point `t` writes back is block `t` of `G2`. -/
theorem flushed_eq (c : Dev nD) (t : Fin cfg0.N) :
    (dats m 0 c).flushed 3 t = ((cfg0.win 3).blk t).view.read (Elt Ideal) (G2 m c) := by
  show (cfg0.win 3).cut (grid0.coords t) ((dats m 0 c).after 3 t) = _
  rw [after0_3]
  obtain ⟨-, -, -, -, -, -, e30, e31⟩ := idx_facts t
  have ht : t.val < 32 := t.isLt
  funext j
  have hj0 : (j 0).val < 256 := (j 0).isLt
  have hj1 : (j 1).val < 2048 := (j 1).isLt
  have hr : t.val * 256 + (j 0).val < 8192 := by omega
  have hx : (cfg0.win 3).xinj (grid0.coords t) j = ix2 (⟨(j 0).val, hj0⟩ : Fin 256) (⟨(j 1).val, hj1⟩ : Fin 2048) :=
    funext fun a => Fin.ext (by match a with | ⟨0, _⟩ => rfl | ⟨1, _⟩ => rfl)
  have he : ((cfg0.win 3).blk t).view.emb j = ix2 (⟨t.val * 256 + (j 0).val, hr⟩ : Fin 8192) (⟨(j 1).val, hj1⟩ : Fin 2048) := by
    funext a; apply Fin.ext
    match a with
    | ⟨0, _⟩ => show win0_3.index t (0 : Fin 2) * 256 + 1 * (j 0).val = t.val * 256 + (j 0).val; omega
    | ⟨1, _⟩ => show win0_3.index t (1 : Fin 2) * 2048 + 1 * (j 1).val = (j 1).val; omega
  rw [View.read_apply]
  refine Eq.trans ?_ (eq_of_heq (cast_heq _ _)).symm
  rw [he]
  show out0_3 (F := Ideal) (iblk m c 0 t) (iblk m c 1 t) (iblk m c 2 t) ((cfg0.win 3).xinj (grid0.coords t) j) = _
  rw [hx]
  exact out_at m c t _ _ _ rfl

/-- An index of the output array is in point `t`'s block iff each coordinate is in the block's range. -/
theorem mem_blk (t : Fin cfg0.N) (i : S8192x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v33).slice (win0_3.rect t)).set ↔ _
  rw [View.set_slice_whole, Rect.mem_set_unit]
  exact Iff.rfl

/-- Every block of rows is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- The 32 blocks cover the output array: row `r` lies in the block of point `r / 256`. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- The output array after the run is `G2`. -/
theorem final (c : Dev nD) : (dats m 0 c).arrAt 3 cfg0.N = G2 m c :=
  (dats m 0 c).arrAt_eq_of_cover 3 (G2 m c) (fun t _ => flushed_eq m c t) cover

/-- The program's result, the output array re-laid as [4, 2048, 2048], is the layer's function of the arguments. -/
theorem result_eq (c : Dev nD) :
    Pipeline.afterTail₀ cfgs (dats m) 0 (V0 m) [hostOps1] c main_v34
      = G (m ((c : Thread nD τ).loc main_arg0))
          (Cert.ReferenceIdeal.Read.val_main_v48 (F := Ideal) (m ((c : Thread nD τ).loc main_arg1)))
          (Cert.ReferenceIdeal.Read.val_main_v14 (F := Ideal) (m ((c : Thread nD τ).loc main_arg2))) := by
  unfold Pipeline.afterTail₀
  show StableHlo.after hostOps1 _ (Proc.devRef .tc main_v34) = _
  after_results
  rw [(Pipeline.withArrays_arr spec0 launch0.win.arr_inj c _ _ 3).trans (final m c)]
  funext i
  obtain ⟨b, s, f, rfl⟩ : ∃ (b : Fin 4) (s : Fin 2048) (f : Fin 2048), i = ix3 b s f := ⟨i 0, i 1, i 2, eq_ix3 i⟩
  have hr : b.val * 2048 + s.val < 8192 := by have := b.isLt; have := s.isLt; omega
  show shapeCast S4x2048x2048 (G2 m c) shapeCasts_S8192x2048_S4x2048x2048 (ix3 b s f) = _
  rw [shapeCast_apply (G2 m c) shapeCasts_S8192x2048_S4x2048x2048 (ix3 b s f) (ix2 (⟨b.val * 2048 + s.val, hr⟩ : Fin 8192) f) (by
    rw [Shape.rowMajor_val_three, Shape.rowMajor_val_two]; rfl)]
  unfold G2
  rw [G2of_apply]
  show _ = rowout (fun d => m ((c : Thread nD τ).loc main_arg0) (ix3 b s d)) _ (fun f => Cert.ReferenceIdeal.Read.val_main_v14 (F := Ideal) (m ((c : Thread nD τ).loc main_arg2)) (ix1 f)) f
  have e0 : (fun d => V m c main_v32 (ix2 (⟨b.val * 2048 + s.val, hr⟩ : Fin 8192) d)) = fun d => m ((c : Thread nD τ).loc main_arg0) (ix3 b s d) :=
    funext fun d => V_input_apply m c b s d _ rfl
  have e2 : (fun f => V m c main_v31 (ix2 (0 : Fin 1) f)) = fun f => Cert.ReferenceIdeal.Read.val_main_v14 (F := Ideal) (m ((c : Thread nD τ).loc main_arg2)) (ix1 f) :=
    funext fun f => V_bias_apply m c f
  rw [e0, e2, V_weights]

/-- The kernel program's run, read: its result is `G` of the arguments, which it leaves unchanged. -/
theorem run : θ_run defs (onTc (τ := τ) (main (F := Ideal))) ⟨m, fun _ => 0, ρ⟩ fun r => ∀ c : Dev nD,
      r.2.mem ((c : Thread nD τ).loc main_v34)
        = G (m ((c : Thread nD τ).loc main_arg0))
            (Cert.ReferenceIdeal.Read.val_main_v48 (F := Ideal) (m ((c : Thread nD τ).loc main_arg1)))
            (Cert.ReferenceIdeal.Read.val_main_v14 (F := Ideal) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v34 (Pipeline.mem_restRefs_of main_v34 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Final

end
-- ==== Proof.lean ====
/-
  The quantised dense layer: a Pallas kernel against its jnp reference, over the extended reals.

  Both programs quantise the input row by row, the weight matrix column by column and the bias as one vector
  (symmetric, to [-127, 127] steps of the absolute maximum), contract, add the bias, cut negatives to zero and
  quantise each result row again. The kernel computes the quantised values `q(v)` themselves — weights and bias on
  the host before the call, input rows and result rows inside the kernel, 256 rows a grid point —; the reference
  writes every quantisation in the straight-through form `v + (q(v) - v)`. On the extended reals the two agree
  exactly where `v` is a real number: for the three inputs that is the precondition, and for the result rows it
  follows because a quantised value is a clamped integer times a positive real step, so every intermediate entry
  is a real (Proof/Quant.lean, Proof/Spec.lean).

  The kernel's result is read off its generated frame run (Proof/KernelBlock.lean: one block entry by entry;
  Proof/KernelHost.lean: the arrays the region finds; Proof/KernelFinal.lean: blocks to array, and the final
  re-laying), the reference's off its generated run and stage lemmas (Proof/RefValue.lean); both are the one
  function `QDense.G` of the arguments. The ideal pass rewrote nothing, so `preserves` is trivial, and the frames are
  the generated ones.
-/
import proofs.«113498_j81621558493457_1_alg».proof.Defs
import proofs.«113498_j81621558493457_1_alg».proof.Proof.Gen.Kernel
import proofs.«113498_j81621558493457_1_alg».proof.Proof.Gen.Kernel.Skeleton
import proofs.«113498_j81621558493457_1_alg».proof.Proof.Gen.Kernel.Launch
import proofs.«113498_j81621558493457_1_alg».proof.Proof.Gen.Kernel.Points
import proofs.«113498_j81621558493457_1_alg».proof.Proof.Gen.Kernel.Frame
import proofs.«113498_j81621558493457_1_alg».proof.Proof.Gen.KernelIdeal
import proofs.«113498_j81621558493457_1_alg».proof.Proof.Gen.KernelIdeal.Skeleton
import proofs.«113498_j81621558493457_1_alg».proof.Proof.Gen.KernelIdeal.Launch
import proofs.«113498_j81621558493457_1_alg».proof.Proof.Gen.KernelIdeal.Points
import proofs.«113498_j81621558493457_1_alg».proof.Proof.Gen.KernelIdeal.Frame
import proofs.«113498_j81621558493457_1_alg».proof.Proof.Gen.ReferenceIdeal
import proofs.«113498_j81621558493457_1_alg».proof.Proof.Gen.Pre_finite_inputs
import proofs.«113498_j81621558493457_1_alg».proof.Proof.Gen.ReferenceIdeal.Run
import proofs.«113498_j81621558493457_1_alg».proof.Proof.Gen.ReferenceIdeal.Read
import proofs.«113498_j81621558493457_1_alg».proof.Proof.Finite
import proofs.«113498_j81621558493457_1_alg».proof.Proof.RefValue
import proofs.«113498_j81621558493457_1_alg».proof.Proof.KernelFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at `QDense.G` of the (agreeing, real) arguments: the kernel whatever its inputs are, the
    reference because the straight-through forms collapse on reals. -/
theorem algebraic : Cert.algebraic_KernelIdeal_ReferenceIdeal := by
  intro m ρ m' ρ' hpre hagree
  refine ⟨fun c => QDense.G (m ((c.tc : Thread Cert.KernelIdeal.nD Cert.KernelIdeal.τ).loc Cert.KernelIdeal.main_arg0))
      (Cert.ReferenceIdeal.Read.val_main_v48 (F := Ideal) (m ((c.tc : Thread Cert.KernelIdeal.nD Cert.KernelIdeal.τ).loc Cert.KernelIdeal.main_arg1)))
      (Cert.ReferenceIdeal.Read.val_main_v14 (F := Ideal) (m ((c.tc : Thread Cert.KernelIdeal.nD Cert.KernelIdeal.τ).loc Cert.KernelIdeal.main_arg2))),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := QDense.reals_of_finite _ _ _ (hpre c)
  rw [Cert.ReferenceIdeal.Read.val_main_v72_eq, (hagree c).1, (hagree c).2.1, (hagree c).2.2]
  exact Cert.ReferenceIdeal.RefValue.ref_eq _ _ _ h0 h1 h2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
